-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S256x128 : Shape := ⟨2, ![256, 128]⟩
abbrev S256 : Shape := ⟨1, ![256]⟩
abbrev S256x256 : Shape := ⟨2, ![256, 256]⟩
abbrev S10x256 : Shape := ⟨2, ![10, 256]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S10x256 : S_.BroadcastsInDim S10x256 (![] : Fin 0 → Fin S10x256.rank)
  reducesTo_S10x256_S_d0_1 : S10x256.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S256x256 .f32) (main_arg10 : FVec F S256 .f32) (main_arg11 : FVec F S10x256 .f32) (main_arg12 : FVec F S10 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S10x256 .f32 := Host.absf main_arg11
  let main_cst_16 : FVec F S_ .f32 := constant S_ .f32 0x7F800000#32
  let main_v45 : FVec F S10x256 .f32 := broadcastInDim S10x256 ![] bcast_S_S10x256 main_cst_16
  let main_v46 : IVec S10x256 1 := cmpf .olt main_v44 main_v45
  let main_c_17 : IVec S_ 1 := constantI S_ 1 1#1
  let main_v47 : IVec S_ 1 := (fun x v => Host.reduce IntOp.andi x v reducesTo_S10x256_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S256 .f32) (main_arg7 : FVec F S256x256 .f32) (main_arg8 : FVec F S256 .f32) (main_arg9 : FVec F S256x256 .f32) (main_arg10 : FVec F S256 .f32) (main_arg11 : FVec F S10x256 .f32) (main_arg12 : FVec F S10 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S256x128 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S10x256 .f32) (main_arg12 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S256x128 : Shape := ⟨2, ![256, 128]⟩
abbrev S256 : Shape := ⟨1, ![256]⟩
abbrev S256x256 : Shape := ⟨2, ![256, 256]⟩
abbrev S10x256 : Shape := ⟨2, ![10, 256]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S128x256 : Shape := ⟨2, ![128, 256]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S64x256 : Shape := ⟨2, ![64, 256]⟩
abbrev S50000x1 : Shape := ⟨2, ![50000, 1]⟩
abbrev S64 : Shape := ⟨1, ![64]⟩
abbrev S64x1 : Shape := ⟨2, ![64, 1]⟩
abbrev S256x10 : Shape := ⟨2, ![256, 10]⟩
abbrev S1x10 : Shape := ⟨2, ![1, 10]⟩
abbrev S64x10 : Shape := ⟨2, ![64, 10]⟩

abbrev nBuf : Space → Nat
  | .hbm => 67
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S256x128, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S10x256, .f32⟩
  | .hbm, ⟨12, _⟩ => ⟨S10, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S128x256, .f32⟩
  | .hbm, ⟨31, _⟩ => ⟨S256x256, .f32⟩
  | .hbm, ⟨32, _⟩ => ⟨S1x256, .f32⟩
  | .hbm, ⟨33, _⟩ => ⟨S1x256, .f32⟩
  | .hbm, ⟨34, _⟩ => ⟨S50000x256, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x256, .f32⟩
  | .hbm, ⟨44, _⟩ => ⟨S_, .f32⟩
  | .hbm, ⟨45, _⟩ => ⟨S50000x256, .f32⟩
  | .hbm, ⟨46, _⟩ => ⟨S800000x1, .i32⟩
  | .hbm, ⟨47, _⟩ => ⟨S50000x256, .f32⟩
  | .hbm, ⟨48, _⟩ => ⟨S256x256, .f32⟩
  | .hbm, ⟨49, _⟩ => ⟨S256x256, .f32⟩
  | .hbm, ⟨50, _⟩ => ⟨S1x256, .f32⟩
  | .hbm, ⟨51, _⟩ => ⟨S1x256, .f32⟩
  | .hbm, ⟨52, _⟩ => ⟨S50000x256, .f32⟩
  | .hbm, ⟨53, _⟩ => ⟨S_, .f32⟩
  | .hbm, ⟨54, _⟩ => ⟨S64x256, .f32⟩
  | .hbm, ⟨55, _⟩ => ⟨S50000x1, .i32⟩
  | .hbm, ⟨56, _⟩ => ⟨S64x256, .f32⟩
  | .hbm, ⟨57, _⟩ => ⟨S_, .f32⟩
  | .hbm, ⟨58, _⟩ => ⟨S50000, .f32⟩
  | .hbm, ⟨59, _⟩ => ⟨S_, .f32⟩
  | .hbm, ⟨60, _⟩ => ⟨S64, .f32⟩
  | .hbm, ⟨61, _⟩ => ⟨S50000x1, .i32⟩
  | .hbm, ⟨62, _⟩ => ⟨S64, .f32⟩
  | .hbm, ⟨63, _⟩ => ⟨S64x1, .f32⟩
  | .hbm, ⟨64, _⟩ => ⟨S256x10, .f32⟩
  | .hbm, ⟨65, _⟩ => ⟨S1x10, .f32⟩
  | .hbm, ⟨66, _⟩ => ⟨S64x10, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x256, .f32⟩
  | .local _ .vmem, ⟨15, _⟩ => ⟨S1x256, .f32⟩
  | .local _ .vmem, ⟨16, _⟩ => ⟨S256x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S64x256, .f32⟩
  | .local _ .vmem, ⟨21, _⟩ => ⟨S64x1, .f32⟩
  | .local _ .vmem, ⟨22, _⟩ => ⟨S256x10, .f32⟩
  | .local _ .vmem, ⟨23, _⟩ => ⟨S1x10, .f32⟩
  | .local _ .vmem, ⟨24, _⟩ => ⟨S64x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_1 : Ref sig .tc := ⟨.hbm, 35, rfl⟩
abbrev main_v19 : Ref sig .tc := ⟨.hbm, 36, rfl⟩
abbrev main_v20 : Ref sig .tc := ⟨.hbm, 37, rfl⟩
abbrev main_c_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem1_0 : DmaSem sig := 21
abbrev cc2_sem2_0 : DmaSem sig := 22
abbrev cc2_sem3_0 : DmaSem sig := 23
abbrev cc2_sem4_0 : DmaSem sig := 24

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S256x128_S128x256_1_0 : S256x128.Transposes [1, 0] S128x256
  transposes_S256x256_S256x256_1_0 : S256x256.Transposes [1, 0] S256x256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  shapeCasts_S2000x256_S2000x256 : S2000x256.ShapeCasts S2000x256
  bcast_S_S64x256 : S_.BroadcastsInDim S64x256 (![] : Fin 0 → Fin S64x256.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  transposes_S10x256_S256x10_1_0 : S10x256.Transposes [1, 0] S256x10
  shapeCasts_S10_S1x10 : S10.ShapeCasts S1x10
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x256_S64x256_0_0 : ∀ a, (![0, 0] : Fin 2 → Nat) a + S64x256.size a ≤ S64x256.size a
  h_S64x256 : 0 < S64x256.numel
  shapeCasts_S64x256_S64x256 : S64x256.ShapeCasts S64x256
  broadcasts_S64x1_S64x256 : S64x1.Broadcasts S64x256
  inb_S256x10_S256x10_0_0 : ∀ a, (![0, 0] : Fin 2 → Nat) a + S256x10.size a ≤ S256x10.size a
  h_S256x10 : 0 < S256x10.numel
  shapeCasts_S256x10_S256x10 : S256x10.ShapeCasts S256x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  dot_S64x256_S256x10_S64x10_1_0_0_1_n_n_wf : DotDims.WF S64x256 S256x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x256.size a ≤ S64x256.size a
  hwx2_0 : ∀ i : grid2.Coords, EltTy.bits .f32 = 32 ∨ (Rect.block (s := S64x256) S64x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x1.size a ≤ S64x1.size a
  hwx2_1 : ∀ i : grid2.Coords, EltTy.bits .f32 = 32 ∨ (Rect.block (s := S64x1) S64x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x10.size a ≤ S256x10.size a
  hwx2_2 : ∀ i : grid2.Coords, EltTy.bits .f32 = 32 ∨ (Rect.block (s := S256x10) S256x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x10.size a ≤ S1x10.size a
  hwx2_3 : ∀ i : grid2.Coords, EltTy.bits .f32 = 32 ∨ (Rect.block (s := S1x10) S1x10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x10.size a ≤ S64x10.size a
  hwx2_4 : ∀ i : grid2.Coords, EltTy.bits .f32 = 32 ∨ (Rect.block (s := S64x10) S64x10.size (cc2_transform_4 i) (hinb2_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v18) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v36) S64x256.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v41) S64x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S256x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S64x10.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S256x128 : Shape := ⟨2, ![256, 128]⟩
abbrev S256 : Shape := ⟨1, ![256]⟩
abbrev S256x256 : Shape := ⟨2, ![256, 256]⟩
abbrev S10x256 : Shape := ⟨2, ![10, 256]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S128x256 : Shape := ⟨2, ![128, 256]⟩
abbrev S50000x256 : Shape := ⟨2, ![50000, 256]⟩
abbrev S1x256 : Shape := ⟨2, ![1, 256]⟩
abbrev S800000x256 : Shape := ⟨2, ![800000, 256]⟩
abbrev S64x256 : Shape := ⟨2, ![64, 256]⟩
abbrev S50000x1 : Shape := ⟨2, ![50000, 1]⟩
abbrev S64 : Shape := ⟨1, ![64]⟩
abbrev S64x1 : Shape := ⟨2, ![64, 1]⟩
abbrev S256x10 : Shape := ⟨2, ![256, 10]⟩
abbrev S64x10 : Shape := ⟨2, ![64, 10]⟩
abbrev S1x10 : Shape := ⟨2, ![1, 10]⟩

abbrev nBuf : Space → Nat
  | .hbm => 96
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S256x128, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S10x256, .f32⟩
  | .hbm, ⟨12, _⟩ => ⟨S10, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S50000x128, .f32⟩
  | .hbm, ⟨31, _⟩ => ⟨S128x256, .f32⟩
  | .hbm, ⟨32, _⟩ => ⟨S50000x256, .f32⟩
  | .hbm, ⟨33, _⟩ => ⟨S1x256, .f32⟩
  | .hbm, ⟨34, _⟩ => ⟨S50000x256, .f32⟩
  | .hbm, ⟨35, _⟩ => ⟨S50000x256, .f32⟩
  | .hbm, ⟨36, _⟩ => ⟨S_, .f32⟩
  | .hbm, ⟨37, _⟩ => ⟨S50000x256, .f32⟩
  | .hbm, ⟨38, _⟩ => ⟨S50000x256, .f32⟩
  | .hbm, ⟨39, _⟩ => ⟨S256x256, .f32⟩
  | .hbm, ⟨40, _⟩ => ⟨S50000x256, .f32⟩
  | .hbm, ⟨41, _⟩ => ⟨S1x256, .f32⟩
  | .hbm, ⟨42, _⟩ => ⟨S50000x256, .f32⟩
  | .hbm, ⟨43, _⟩ => ⟨S50000x256, .f32⟩
  | .hbm, ⟨44, _⟩ => ⟨S1x800000, .i32⟩
  | .hbm, ⟨45, _⟩ => ⟨S800000, .i32⟩
  | .hbm, ⟨46, _⟩ => ⟨S1x800000, .i32⟩
  | .hbm, ⟨47, _⟩ => ⟨S800000, .i32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x256, .f32⟩
  | .hbm, ⟨57, _⟩ => ⟨S_, .f32⟩
  | .hbm, ⟨58, _⟩ => ⟨S50000x256, .f32⟩
  | .hbm, ⟨59, _⟩ => ⟨S800000x1, .i32⟩
  | .hbm, ⟨60, _⟩ => ⟨S50000x256, .f32⟩
  | .hbm, ⟨61, _⟩ => ⟨S50000x256, .f32⟩
  | .hbm, ⟨62, _⟩ => ⟨S256x256, .f32⟩
  | .hbm, ⟨63, _⟩ => ⟨S50000x256, .f32⟩
  | .hbm, ⟨64, _⟩ => ⟨S1x256, .f32⟩
  | .hbm, ⟨65, _⟩ => ⟨S50000x256, .f32⟩
  | .hbm, ⟨66, _⟩ => ⟨S50000x256, .f32⟩
  | .hbm, ⟨67, _⟩ => ⟨S_, .f32⟩
  | .hbm, ⟨68, _⟩ => ⟨S50000x256, .f32⟩
  | .hbm, ⟨69, _⟩ => ⟨S50000x256, .f32⟩
  | .hbm, ⟨70, _⟩ => ⟨S256x256, .f32⟩
  | .hbm, ⟨71, _⟩ => ⟨S50000x256, .f32⟩
  | .hbm, ⟨72, _⟩ => ⟨S1x256, .f32⟩
  | .hbm, ⟨73, _⟩ => ⟨S50000x256, .f32⟩
  | .hbm, ⟨74, _⟩ => ⟨S50000x256, .f32⟩
  | .hbm, ⟨75, _⟩ => ⟨S_, .f32⟩
  | .hbm, ⟨76, _⟩ => ⟨S64x256, .f32⟩
  | .hbm, ⟨77, _⟩ => ⟨S50000x1, .i32⟩
  | .hbm, ⟨78, _⟩ => ⟨S64x256, .f32⟩
  | .hbm, ⟨79, _⟩ => ⟨S_, .f32⟩
  | .hbm, ⟨80, _⟩ => ⟨S50000, .f32⟩
  | .hbm, ⟨81, _⟩ => ⟨S_, .f32⟩
  | .hbm, ⟨82, _⟩ => ⟨S64, .f32⟩
  | .hbm, ⟨83, _⟩ => ⟨S50000x1, .i32⟩
  | .hbm, ⟨84, _⟩ => ⟨S64, .f32⟩
  | .hbm, ⟨85, _⟩ => ⟨S_, .f32⟩
  | .hbm, ⟨86, _⟩ => ⟨S64, .f32⟩
  | .hbm, ⟨87, _⟩ => ⟨S64, .f32⟩
  | .hbm, ⟨88, _⟩ => ⟨S64x1, .f32⟩
  | .hbm, ⟨89, _⟩ => ⟨S64x256, .f32⟩
  | .hbm, ⟨90, _⟩ => ⟨S64x256, .f32⟩
  | .hbm, ⟨91, _⟩ => ⟨S256x10, .f32⟩
  | .hbm, ⟨92, _⟩ => ⟨S64x10, .f32⟩
  | .hbm, ⟨93, _⟩ => ⟨S1x10, .f32⟩
  | .hbm, ⟨94, _⟩ => ⟨S64x10, .f32⟩
  | .hbm, ⟨95, _⟩ => ⟨S64x10, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call0_cst : Ref sig .tc := ⟨.hbm, 36, rfl⟩
abbrev main_call0_v0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_1 : Ref sig .tc := ⟨.hbm, 48, rfl⟩
abbrev main_v30 : Ref sig .tc := ⟨.hbm, 49, rfl⟩
abbrev main_v31 : Ref sig .tc := ⟨.hbm, 50, rfl⟩
abbrev main_c_2 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_3 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call1_cst : Ref sig .tc := ⟨.hbm, 67, rfl⟩
abbrev main_call1_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_4 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_5 : Ref sig .tc := ⟨.hbm, 79, rfl⟩
abbrev main_v55 : Ref sig .tc := ⟨.hbm, 80, rfl⟩
abbrev main_cst_6 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_7 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  transposes_S256x256_S256x256_1_0 : S256x256.Transposes [1, 0] S256x256
  bcast_S_S64x256 : S_.BroadcastsInDim S64x256 (![] : Fin 0 → Fin S64x256.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  transposes_S10x256_S256x10_1_0 : S10x256.Transposes [1, 0] S256x10
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  dot_S64x256_S256x10_S64x10_1_0_0_1_n_n_wf : DotDims.WF S64x256 S256x10 S64x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

class Facts : Prop extends Facts₀ where

variable [Facts]
-- ==== Proof.Spec.lean ====
/-
  What both programs compute, as whole-array functions at the exact instance.

  A graph-isomorphism layer: every node adds to its own feature row the sum of the rows of its in-neighbours
  (the rows gathered at the edges' sources, summed into the edges' destinations), and the sum goes through a
  two-layer perceptron: z ↦ relu(z · Waᵀ + ba) · Wbᵀ + bb. Two such layers, then the rows are summed per graph,
  divided by max(number of nodes of the graph, 1), and a last linear map gives the logits.
  The neighbour sum, the per-graph sums and the node counts are the same host operations in both programs and are
  carried here as they are written, never opened. The perceptron and the pooling head are written with the
  reference's host operations; `*_apply` reads each at an index as plain finite sums over the extended reals.
-/
import proofs.«107765_j395136991531_1_alg».proof.Proof.Gen.ReferenceIdeal.Read

noncomputable section

namespace Cert.Spec

open Cert.ReferenceIdeal Cert.ReferenceIdeal.Gen Idealize.ShloMosaic Idealize.ShloMosaic.TcCoe Idealize.ShloMosaic.ValueIdx

/-- Arrays of reals (extended), and of 32-bit words, of a shape. -/
abbrev RA (s : Shape) := FVec Ideal s .f32
abbrev WA (s : Shape) := IVec s 32

/-! ## The edge list: sources (negative indices wrapped once by the node count) and destinations, as index columns -/

/-- Row `r` of the 2 × E edge array as a vector of E words. -/
def edgeRow0 (ei : WA S2x800000) : WA S800000 :=
  shapeCast _ (extractStridedSlice S1x800000 ![0, 0] ei slices_S2x800000_S1x800000_0_0) shapeCasts_S1x800000_S800000
def edgeRow1 (ei : WA S2x800000) : WA S800000 :=
  shapeCast _ (extractStridedSlice S1x800000 ![1, 0] ei slices_S2x800000_S1x800000_1_0) shapeCasts_S1x800000_S800000

/-- The sources as a column of gather indices: a negative word has the node count added. -/
def srcCol (ei : WA S2x800000) : WA S800000x1 :=
  broadcastInDim S800000x1 ![0] bcast_S800000_S800000x1_0
    (select (cmpi .slt (edgeRow0 ei) (broadcastInDim S800000 ![] bcast_S_S800000 (constantI S_ 32 0#32)))
      (addi (edgeRow0 ei) (broadcastInDim S800000 ![] bcast_S_S800000 (constantI S_ 32 50000#32))) (edgeRow0 ei))
/-- The destinations as a column of scatter indices. -/
def dstCol (ei : WA S2x800000) : WA S800000x1 :=
  broadcastInDim S800000x1 ![0] bcast_S800000_S800000x1_0 (edgeRow1 ei)

/-- The neighbour sum over 128 features: the rows gathered at the sources, summed into the destinations' rows of a zero array. -/
def agg128 (x : RA S50000x128) (ei : WA S2x800000) : RA S50000x128 :=
  Host.scatterAdd scatter_S50000x128_S800000x1_S800000x128_1_0_0_1
    (broadcastInDim S50000x128 ![] bcast_S_S50000x128 (constant S_ .f32 0x00000000#32)) (dstCol ei)
    (Host.gather gather_S50000x128_S800000x1_S800000x128_1_0_n_n_0_1_1128 x (srcCol ei))
/-- The same over 256 features. -/
def agg256 (h : RA S50000x256) (ei : WA S2x800000) : RA S50000x256 :=
  Host.scatterAdd scatter_S50000x256_S800000x1_S800000x256_1_0_0_1
    (broadcastInDim S50000x256 ![] bcast_S_S50000x256 (constant S_ .f32 0x00000000#32)) (dstCol ei)
    (Host.gather gather_S50000x256_S800000x1_S800000x256_1_0_n_n_0_1_1256 h (srcCol ei))

/-! ## The perceptron of a layer: relu((x + agg) · WaT + ba) · WbT + bb, the biases broadcast along the rows -/

/-- A bias vector as an N × 256 array, each row the vector. -/
def biasRows (b : RA S256) : RA S50000x256 :=
  broadcastInDim S50000x256 ![0, 1] bcast_S1x256_S50000x256_0_1 (broadcastInDim S1x256 ![1] bcast_S256_S1x256_1 b)

def mlp128 (x agg : RA S50000x128) (WaT : RA S128x256) (ba : RA S256) (WbT : RA S256x256) (bb : RA S256) : RA S50000x256 :=
  addf (Host.dotGeneral dot_S50000x256_S256x256_S50000x256_1_0_0_1_n_n none
      (maximumf (addf (Host.dotGeneral dot_S50000x128_S128x256_S50000x256_1_0_0_1_n_n none (addf x agg) WaT) (biasRows ba))
        (broadcastInDim S50000x256 ![] bcast_S_S50000x256 (constant S_ .f32 0x00000000#32))) WbT) (biasRows bb)

def mlp256 (x agg : RA S50000x256) (WaT : RA S256x256) (ba : RA S256) (WbT : RA S256x256) (bb : RA S256) : RA S50000x256 :=
  addf (Host.dotGeneral dot_S50000x256_S256x256_S50000x256_1_0_0_1_n_n none
      (maximumf (addf (Host.dotGeneral dot_S50000x256_S256x256_S50000x256_1_0_0_1_n_n none (addf x agg) WaT) (biasRows ba))
        (broadcastInDim S50000x256 ![] bcast_S_S50000x256 (constant S_ .f32 0x00000000#32))) WbT) (biasRows bb)

/-! ## Pooling per graph and the classifier -/

/-- The rows summed per graph: row n into row batch[n] of a zero 64 × 256 array. -/
def graphSums (h : RA S50000x256) (batch : WA S50000) : RA S64x256 :=
  Host.scatterAdd scatter_S64x256_S50000x1_S50000x256_1_0_0_1
    (broadcastInDim S64x256 ![] bcast_S_S64x256 (constant S_ .f32 0x00000000#32))
    (broadcastInDim S50000x1 ![0] bcast_S50000_S50000x1_0 batch) h
/-- The number of nodes of each graph: ones summed per graph. -/
def graphCounts (batch : WA S50000) : RA S64 :=
  Host.scatterAdd scatter_S64_S50000x1_S50000_n_0_0_1
    (broadcastInDim S64 ![] bcast_S_S64 (constant S_ .f32 0x00000000#32))
    (broadcastInDim S50000x1 ![0] bcast_S50000_S50000x1_0 batch)
    (broadcastInDim S50000 ![] bcast_S_S50000 (constant S_ .f32 0x3F800000#32))

/-- The head: (sums / max(counts, 1)) · WcT + bc. -/
def head (sums : RA S64x256) (cnts : RA S64) (WcT : RA S256x10) (bc : RA S10) : RA S64x10 :=
  addf (Host.dotGeneral dot_S64x256_S256x10_S64x10_1_0_0_1_n_n none
      (Host.divf sums (broadcastInDim S64x256 ![0, 1] bcast_S64x1_S64x256_0_1 (broadcastInDim S64x1 ![0] bcast_S64_S64x1_0
        (maximumf cnts (broadcastInDim S64 ![] bcast_S_S64 (constant S_ .f32 0x3F800000#32)))))) WcT)
    (broadcastInDim S64x10 ![0, 1] bcast_S1x10_S64x10_0_1 (broadcastInDim S1x10 ![1] bcast_S10_S1x10_1 bc))

/-! ## The whole network -/

def layer1 (x : RA S50000x128) (ei : WA S2x800000) (W1a : RA S256x128) (b1a : RA S256) (W1b : RA S256x256) (b1b : RA S256) : RA S50000x256 :=
  mlp128 x (agg128 x ei) (transpose S128x256 [1, 0] W1a transposes_S256x128_S128x256_1_0) b1a
    (transpose S256x256 [1, 0] W1b transposes_S256x256_S256x256_1_0) b1b

def layer2 (h : RA S50000x256) (ei : WA S2x800000) (W2a : RA S256x256) (b2a : RA S256) (W2b : RA S256x256) (b2b : RA S256) : RA S50000x256 :=
  mlp256 h (agg256 h ei) (transpose S256x256 [1, 0] W2a transposes_S256x256_S256x256_1_0) b2a
    (transpose S256x256 [1, 0] W2b transposes_S256x256_S256x256_1_0) b2b

def logits (x : RA S50000x128) (ei : WA S2x800000) (batch : WA S50000) (W1a : RA S256x128) (b1a : RA S256) (W1b : RA S256x256) (b1b : RA S256)
    (W2a : RA S256x256) (b2a : RA S256) (W2b : RA S256x256) (b2b : RA S256) (Wc : RA S10x256) (bc : RA S10) : RA S64x10 :=
  head (graphSums (layer2 (layer1 x ei W1a b1a W1b b1b) ei W2a b2a W2b b2b) batch) (graphCounts batch)
    (transpose S256x10 [1, 0] Wc transposes_S10x256_S256x10_1_0) bc

set_option maxRecDepth 16384 in
/-- The reference's result is the network of its arguments. -/
theorem reference_result (m : (ℓ : Loc nD τ sig) → Buf (Elt Ideal) ℓ) (c : Dev nD) :
    Cert.ReferenceIdeal.Value.res_main_v68 (F := Ideal) m c
      = logits (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) := by
  unfold Cert.ReferenceIdeal.Value.res_main_v68
  rfl

end Cert.Spec

end
-- ==== Proof.LibPlainDot.lean ====
/-
  A plain matrix product read at an entry.

  For the dimension numbers of an M × K by K × N product (the left operand contracted on its second axis, the right on
  its first, no batch axis) the one-axis contraction index is its coordinate, so at the exact instance the kernel's
  matrix-unit product into a zero accumulator and the host's `dot_general` are both, at entry (p, j),
  the finite sum over k of left(p, k) · right(k, j) on the extended reals.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat}

/-- On the left operand's row axis the operand index is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
/-- On the left operand's contracted axis it is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
/-- On the right operand's contracted axis it is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
/-- On the right operand's column axis it is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction index of a plain product is the sum over k of left(p, k) · right(k, j). -/
theorem sum_contr (l : (⟨2, ![M, K]⟩ : Shape).Idx → EReal) (r : (⟨2, ![K, N]⟩ : Shape).Idx → EReal) (p : Fin M) (j : Fin N) :
    ∑ q : (DotDims.plain M K N).contr.Idx, l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- The matrix unit's product into a zero accumulator, at an entry, for any record that is the plain one. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    FloatOps.matmul d prec l r (constant ⟨2, ![M, N]⟩ .f32 0x00000000#32) (ix2 p j) = ∑ k : Fin K, l (ix2 p k) * r (ix2 k j) := by
  subst hd
  rw [Ideal.matmul_constant_zero_apply]
  exact sum_contr l r p j

/-- The host's `dot_general`, at an entry, for any record that is the plain one, whatever the schedule. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (j : Fin N) :
    FloatOps.dotGeneral d prec sched l r (ix2 p j) = ∑ k : Fin K, l (ix2 p k) * r (ix2 k j) := by
  subst hd
  rw [Ideal.dotGeneral_apply]
  exact sum_contr l r p j

end Idealize.ShloMosaic.PlainDot

end
-- ==== Proof.SpecRead.lean ====
/-
  The network's layers read at an entry, as finite sums over the extended reals.

  Entry (p, j) of a layer's perceptron is  Σ_k max(Σ_l (x + agg)(p, l) · WaT(l, k) + ba(k), 0) · WbT(k, j) + bb(j);
  entry (g, j) of the head is  Σ_k (sums(g, k) / max(cnts(g), 1)) · WcT(k, j) + bc(j).
  The zero and the one stay the float words they are written as: the same words stand on the kernel's side.
-/
import proofs.«107765_j395136991531_1_alg».proof.Proof.Spec
import proofs.«107765_j395136991531_1_alg».proof.Proof.LibPlainDot
import Idealize.ShloMosaic.Lib.ValueLayout

noncomputable section

namespace Cert.Spec

open Cert.ReferenceIdeal Cert.ReferenceIdeal.Gen Idealize.ShloMosaic Idealize.ShloMosaic.TcCoe Idealize.ShloMosaic.ValueIdx

/-! ## The three host products at an entry -/

theorem dot128_apply (l : RA S50000x128) (r : RA S128x256) (p : Fin 50000) (j : Fin 256) :
    FloatOps.dotGeneral dot_S50000x128_S128x256_S50000x256_1_0_0_1_n_n none .single l r (ix2 p j)
      = ∑ k : Fin 128, l (ix2 p k) * r (ix2 k j) :=
  PlainDot.dotGeneral_apply _ rfl _ _ l r p j

theorem dot256_apply (l : RA S50000x256) (r : RA S256x256) (p : Fin 50000) (j : Fin 256) :
    FloatOps.dotGeneral dot_S50000x256_S256x256_S50000x256_1_0_0_1_n_n none .single l r (ix2 p j)
      = ∑ k : Fin 256, l (ix2 p k) * r (ix2 k j) :=
  PlainDot.dotGeneral_apply _ rfl _ _ l r p j

theorem dotHead_apply (l : RA S64x256) (r : RA S256x10) (p : Fin 64) (j : Fin 10) :
    FloatOps.dotGeneral dot_S64x256_S256x10_S64x10_1_0_0_1_n_n none .single l r (ix2 p j)
      = ∑ k : Fin 256, l (ix2 p k) * r (ix2 k j) :=
  PlainDot.dotGeneral_apply _ rfl _ _ l r p j

/-! ## Broadcasts at an entry -/

/-- A bias broadcast along the rows reads the bias at the column. -/
theorem biasRows_apply (b : RA S256) (p : Fin 50000) (j : Fin 256) : biasRows b (ix2 p j) = b (ix1 j) := by
  unfold biasRows
  rw [broadcastInDim_apply _ bcast_S1x256_S50000x256_0_1 _ (ix2 p j) (ix2 (0 : Fin 1) j) (fun a => match a with
    | ⟨0, _⟩ => by show 0 = if (1 : Nat) = 1 then 0 else p.val; rw [if_pos rfl]
    | ⟨1, _⟩ => by show j.val = if (256 : Nat) = 1 then 0 else j.val; rw [if_neg (by decide)])]
  exact broadcastInDim_apply _ bcast_S256_S1x256_1 b (ix2 (0 : Fin 1) j) (ix1 j) (fun a => match a with
    | ⟨0, _⟩ => by show j.val = if (256 : Nat) = 1 then 0 else j.val; rw [if_neg (by decide)])

/-- The zero array of the relu reads the zero word everywhere. -/
theorem zeros_apply (i : S50000x256.Idx) :
    broadcastInDim S50000x256 ![] bcast_S_S50000x256 (constant (F := Ideal) S_ .f32 0x00000000#32) i = Ideal.ofBits .f32 0x00000000#32 :=
  broadcastInDim_apply _ bcast_S_S50000x256 _ i ix0 (fun a => a.elim0)

/-! ## The perceptrons at an entry -/

theorem mlp128_apply (x agg : RA S50000x128) (WaT : RA S128x256) (ba : RA S256) (WbT : RA S256x256) (bb : RA S256) (p : Fin 50000) (j : Fin 256) :
    mlp128 x agg WaT ba WbT bb (ix2 p j)
      = (∑ k : Fin 256, max ((∑ l : Fin 128, (x (ix2 p l) + agg (ix2 p l)) * WaT (ix2 l k)) + ba (ix1 k)) (Ideal.ofBits .f32 0x00000000#32) * WbT (ix2 k j))
        + bb (ix1 j) := by
  unfold mlp128
  simp only [addf_apply, maximumf_apply, Host.dotGeneral, dot256_apply, dot128_apply, biasRows_apply]
  refine congrArg (· + bb (ix1 j)) (Finset.sum_congr rfl fun k _ => ?_)
  rw [zeros_apply]

theorem mlp256_apply (x agg : RA S50000x256) (WaT : RA S256x256) (ba : RA S256) (WbT : RA S256x256) (bb : RA S256) (p : Fin 50000) (j : Fin 256) :
    mlp256 x agg WaT ba WbT bb (ix2 p j)
      = (∑ k : Fin 256, max ((∑ l : Fin 256, (x (ix2 p l) + agg (ix2 p l)) * WaT (ix2 l k)) + ba (ix1 k)) (Ideal.ofBits .f32 0x00000000#32) * WbT (ix2 k j))
        + bb (ix1 j) := by
  unfold mlp256
  simp only [addf_apply, maximumf_apply, Host.dotGeneral, dot256_apply, biasRows_apply]
  refine congrArg (· + bb (ix1 j)) (Finset.sum_congr rfl fun k _ => ?_)
  rw [zeros_apply]

/-! ## The head at an entry -/

/-- max(count, 1) of a graph, as the head divides by it. -/
theorem divisor_apply (cnts : RA S64) (g : Fin 64) (k : Fin 256) :
    broadcastInDim S64x256 ![0, 1] bcast_S64x1_S64x256_0_1 (broadcastInDim S64x1 ![0] bcast_S64_S64x1_0
        (maximumf cnts (broadcastInDim S64 ![] bcast_S_S64 (constant (F := Ideal) S_ .f32 0x3F800000#32)))) (ix2 g k)
      = max (cnts (ix1 g)) (Ideal.ofBits .f32 0x3F800000#32) := by
  rw [broadcastInDim_apply _ bcast_S64x1_S64x256_0_1 _ (ix2 g k) (ix2 g (0 : Fin 1)) (fun a => match a with
    | ⟨0, _⟩ => by show g.val = if (64 : Nat) = 1 then 0 else g.val; rw [if_neg (by decide)]
    | ⟨1, _⟩ => by show 0 = if (1 : Nat) = 1 then 0 else k.val; rw [if_pos rfl])]
  rw [broadcastInDim_apply _ bcast_S64_S64x1_0 _ (ix2 g (0 : Fin 1)) (ix1 g) (fun a => match a with
    | ⟨0, _⟩ => by show g.val = if (64 : Nat) = 1 then 0 else g.val; rw [if_neg (by decide)])]
  show max (cnts (ix1 g)) _ = _
  rw [broadcastInDim_apply _ bcast_S_S64 _ (ix1 g) ix0 (fun a => a.elim0)]
  rfl

/-- The classifier's bias broadcast along the graphs reads the bias at the class. -/
theorem biasHead_apply (bc : RA S10) (g : Fin 64) (j : Fin 10) :
    broadcastInDim S64x10 ![0, 1] bcast_S1x10_S64x10_0_1 (broadcastInDim S1x10 ![1] bcast_S10_S1x10_1 bc) (ix2 g j) = bc (ix1 j) := by
  rw [broadcastInDim_apply _ bcast_S1x10_S64x10_0_1 _ (ix2 g j) (ix2 (0 : Fin 1) j) (fun a => match a with
    | ⟨0, _⟩ => by show 0 = if (1 : Nat) = 1 then 0 else g.val; rw [if_pos rfl]
    | ⟨1, _⟩ => by show j.val = if (10 : Nat) = 1 then 0 else j.val; rw [if_neg (by decide)])]
  exact broadcastInDim_apply _ bcast_S10_S1x10_1 bc (ix2 (0 : Fin 1) j) (ix1 j) (fun a => match a with
    | ⟨0, _⟩ => by show j.val = if (10 : Nat) = 1 then 0 else j.val; rw [if_neg (by decide)])

theorem head_apply (sums : RA S64x256) (cnts : RA S64) (WcT : RA S256x10) (bc : RA S10) (g : Fin 64) (j : Fin 10) :
    head sums cnts WcT bc (ix2 g j)
      = (∑ k : Fin 256, Ideal.div (sums (ix2 g k)) (max (cnts (ix1 g)) (Ideal.ofBits .f32 0x3F800000#32)) * WcT (ix2 k j)) + bc (ix1 j) := by
  unfold head
  simp only [addf_apply, Host.dotGeneral, dotHead_apply, Host.divf, Ideal.hostDivf_def]
  rw [biasHead_apply]
  refine congrArg (· + bc (ix1 j)) (Finset.sum_congr rfl fun k _ => ?_)
  rw [divisor_apply]

end Cert.Spec

end
-- ==== Proof.Layer1Value.lean ====
/-
  The first layer's kernel: what its output array holds after the run.

  The grid has 25 points; point t stages rows 2000·t … 2000·t + 1999 of the node features and of the neighbour sums,
  the two weight matrices and the two bias rows whole, and writes back the same rows of the output. Entry (r, j) of
  the block the body stores is  Σ_k max(Σ_l (x + agg)(r, l) · WaT(l, k) + ba(k), 0) · WbT(k, j) + bb(j)  over the
  staged rows: the rounding of the operands to bf16 is the identity on the reals and the matrix unit's product into a
  zero accumulator is the plain sum. That is the perceptron of the whole arrays at row 2000·t + r, and the 25 blocks
  tile the output, so the array ends at the perceptron of the arrays the region found.
-/
import proofs.«107765_j395136991531_1_alg».proof.Proof.Gen.KernelIdeal.Frame
import proofs.«107765_j395136991531_1_alg».proof.Proof.SpecRead

set_option maxRecDepth 16384

noncomputable section

namespace Cert.KernelIdeal.Layer1

open Cert.KernelIdeal Cert.KernelIdeal.Gen Idealize.ShloMosaic Idealize.ShloMosaic.TcCoe Idealize.ShloMosaic.ValueIdx Idealize.SL.Sem
open Idealize.ShloMosaic.Pipeline (Dat)

/-! ## The body's two products at an entry -/

theorem mmA_apply {φ₁ φ₂ : FTy} (l : FVec Ideal S2000x128 φ₁) (r : FVec Ideal S128x256 φ₂) (p : Fin 2000) (j : Fin 256) :
    FloatOps.matmul dot_S2000x128_S128x256_S2000x256_1_0_0_1_n_n none l r (constant S2000x256 .f32 0x00000000#32) (ix2 p j)
      = ∑ k : Fin 128, l (ix2 p k) * r (ix2 k j) :=
  PlainDot.matmul_zero_apply _ rfl _ l r p j

theorem mmB_apply {φ₁ φ₂ : FTy} (l : FVec Ideal S2000x256 φ₁) (r : FVec Ideal S256x256 φ₂) (p : Fin 2000) (j : Fin 256) :
    FloatOps.matmul dot_S2000x256_S256x256_S2000x256_1_0_0_1_n_n none l r (constant S2000x256 .f32 0x00000000#32) (ix2 p j)
      = ∑ k : Fin 256, l (ix2 p k) * r (ix2 k j) :=
  PlainDot.matmul_zero_apply _ rfl _ l r p j

/-! ## The stored block at an entry -/

/-- Entry (r, j) of what the body stores, over the blocks it loaded. -/
theorem stored_apply (v0 v1 : Vec Ideal S2000x128 .f32) (v5 : Vec Ideal S128x256 .f32) (v9 : Vec Ideal S1x256 .f32)
    (v16 : Vec Ideal S256x256 .f32) (v20 : Vec Ideal S1x256 .f32) (r : Fin 2000) (j : Fin 256) :
    k0_pay1 v0 v1 v5 v9 v16 v20 (ix2 r j)
      = (∑ k : Fin 256, max ((∑ l : Fin 128, (v0 (ix2 r l) + v1 (ix2 r l)) * v5 (ix2 l k)) + v9 (ix2 (0 : Fin 1) k)) (Ideal.ofBits .f32 0x00000000#32)
            * v16 (ix2 k j))
        + v20 (ix2 (0 : Fin 1) j) := by
  unfold k0_pay1
  simp only [addf_apply, maximumf_apply, truncf_apply, matmul, mmB_apply, mmA_apply, shapeCast_self, broadcastTo_1b_ab_apply, broadcast_apply]
  rfl

/-! ## The blocks' places in their arrays -/

theorem hz : (![0, 0] : Fin 2 → Nat) = fun _ => 0 := funext fun a => by fin_cases a <;> rfl

/-- The printed index maps over the grid: the row-blocked windows (features, neighbour sums, output) are at block
    (t, 0), the weights and the bias rows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

section Region

variable (V : (c : Dev nD) → (b : Ref sig .tc) → Buf (Elt Ideal) ((c : Thread nD τ).loc b))

/-- Row r of the features' block at point t is row 2000·t + r of the array. -/
theorem read_x (c : Dev nD) (t : Fin cfg0.N) (r : Fin 2000) (l : Fin 128) :
    iblk0 V c 0 t (ix2 r l)
      = V c main_arg0 (ix2 (⟨2000 * t.val + r.val, by have ht : t.val < 25 := t.isLt; have := r.isLt; omega⟩ : Fin 50000) l) := by
  obtain ⟨e0, e1, -⟩ := idx_facts t
  show V c main_arg0 (((cfg0.win 0).blk t).view.emb (ix2 r l)) = _
  refine congrArg (V c main_arg0) (funext fun a => Fin.ext ?_)
  match a with
  | ⟨0, _⟩ => show win0_0.index t (0 : Fin 2) * 2000 + 1 * r.val = 2000 * t.val + r.val; omega
  | ⟨1, _⟩ => show win0_0.index t (1 : Fin 2) * 128 + 1 * l.val = l.val; omega

/-- The same for the neighbour sums. -/
theorem read_agg (c : Dev nD) (t : Fin cfg0.N) (r : Fin 2000) (l : Fin 128) :
    iblk0 V c 1 t (ix2 r l)
      = V c main_v13 (ix2 (⟨2000 * t.val + r.val, by have ht : t.val < 25 := t.isLt; have := r.isLt; omega⟩ : Fin 50000) l) := by
  obtain ⟨-, -, e2, e3, -⟩ := idx_facts t
  show V c main_v13 (((cfg0.win 1).blk t).view.emb (ix2 r l)) = _
  refine congrArg (V c main_v13) (funext fun a => Fin.ext ?_)
  match a with
  | ⟨0, _⟩ => show win0_1.index t (0 : Fin 2) * 2000 + 1 * r.val = 2000 * t.val + r.val; omega
  | ⟨1, _⟩ => show win0_1.index t (1 : Fin 2) * 128 + 1 * l.val = l.val; omega

/-- The first weight matrix is staged whole at every point. -/
theorem read_WaT (c : Dev nD) (t : Fin cfg0.N) (l : Fin 128) (k : Fin 256) :
    iblk0 V c 2 t (ix2 l k) = V c main_v14 (ix2 l k) := by
  obtain ⟨-, -, -, -, e4, e5, -⟩ := idx_facts t
  show V c main_v14 (((cfg0.win 2).blk t).view.emb (ix2 l k)) = _
  refine congrArg (V c main_v14) (funext fun a => Fin.ext ?_)
  match a with
  | ⟨0, _⟩ => show win0_2.index t (0 : Fin 2) * 128 + 1 * l.val = l.val; omega
  | ⟨1, _⟩ => show win0_2.index t (1 : Fin 2) * 256 + 1 * k.val = k.val; omega

/-- The first bias row is staged whole; as the region finds it, it is the bias vector with a unit axis in front. -/
theorem read_ba (c : Dev nD) (ba : FVec Ideal S256 .f32) (hba : V c main_v16 = shapeCast S1x256 ba shapeCasts_S256_S1x256)
    (t : Fin cfg0.N) (k : Fin 256) : iblk0 V c 3 t (ix2 (0 : Fin 1) k) = ba (ix1 k) := by
  obtain ⟨-, -, -, -, -, -, e6, e7, -⟩ := idx_facts t
  have h : iblk0 V c 3 t (ix2 (0 : Fin 1) k) = V c main_v16 (ix2 (0 : Fin 1) k) := by
    show V c main_v16 (((cfg0.win 3).blk t).view.emb (ix2 (0 : Fin 1) k)) = _
    refine congrArg (V c main_v16) (funext fun a => Fin.ext ?_)
    match a with
    | ⟨0, _⟩ => show win0_3.index t (0 : Fin 2) * 1 + 1 * 0 = 0; omega
    | ⟨1, _⟩ => show win0_3.index t (1 : Fin 2) * 256 + 1 * k.val = k.val; omega
  exact h.trans ((congrFun hba (ix2 (0 : Fin 1) k)).trans (shapeCast_a_1a_apply ba _ 0 k))

/-- The second weight matrix is staged whole at every point. -/
theorem read_WbT (c : Dev nD) (t : Fin cfg0.N) (k : Fin 256) (j : Fin 256) :
    iblk0 V c 4 t (ix2 k j) = V c main_v15 (ix2 k j) := by
  obtain ⟨-, -, -, -, -, -, -, -, e8, e9, -⟩ := idx_facts t
  show V c main_v15 (((cfg0.win 4).blk t).view.emb (ix2 k j)) = _
  refine congrArg (V c main_v15) (funext fun a => Fin.ext ?_)
  match a with
  | ⟨0, _⟩ => show win0_4.index t (0 : Fin 2) * 256 + 1 * k.val = k.val; omega
  | ⟨1, _⟩ => show win0_4.index t (1 : Fin 2) * 256 + 1 * j.val = j.val; omega

/-- The second bias row, as the first. -/
theorem read_bb (c : Dev nD) (bb : FVec Ideal S256 .f32) (hbb : V c main_v17 = shapeCast S1x256 bb shapeCasts_S256_S1x256)
    (t : Fin cfg0.N) (j : Fin 256) : iblk0 V c 5 t (ix2 (0 : Fin 1) j) = bb (ix1 j) := by
  obtain ⟨-, -, -, -, -, -, -, -, -, -, e10, e11, -⟩ := idx_facts t
  have h : iblk0 V c 5 t (ix2 (0 : Fin 1) j) = V c main_v17 (ix2 (0 : Fin 1) j) := by
    show V c main_v17 (((cfg0.win 5).blk t).view.emb (ix2 (0 : Fin 1) j)) = _
    refine congrArg (V c main_v17) (funext fun a => Fin.ext ?_)
    match a with
    | ⟨0, _⟩ => show win0_5.index t (0 : Fin 2) * 1 + 1 * 0 = 0; omega
    | ⟨1, _⟩ => show win0_5.index t (1 : Fin 2) * 256 + 1 * j.val = j.val; omega
  exact h.trans ((congrFun hbb (ix2 (0 : Fin 1) j)).trans (shapeCast_a_1a_apply bb _ 0 j))

/-! ## What a point writes back, and the array after the run -/

/-- Point t writes back rows 2000·t … of the perceptron of the arrays the region found. -/
theorem flushed_eq (c : Dev nD) (ba bb : FVec Ideal S256 .f32)
    (hba : V c main_v16 = shapeCast S1x256 ba shapeCasts_S256_S1x256) (hbb : V c main_v17 = shapeCast S1x256 bb shapeCasts_S256_S1x256)
    (t : Fin cfg0.N) :
    (dat0 (F := Ideal) V c).flushed 6 t
      = ((cfg0.win 6).blk t).view.read (Elt Ideal)
          (Cert.Spec.mlp128 (V c main_arg0) (V c main_v13) (V c main_v14) ba (V c main_v15) bb) := by
  show (cfg0.win 6).cut (grid0.coords t) ((dat0 V c).after 6 t) = _
  rw [after0_6]
  unfold out0_6
  rw [View.canon_unit_zero hz]
  simp only [View.ld_unit_zero (S := S2000x128) hz, View.ld_unit_zero (S := S128x256) hz, View.ld_unit_zero (S := S1x256) hz,
    View.ld_unit_zero (S := S256x256) hz]
  funext y
  obtain ⟨r, j, rfl⟩ : ∃ (r : Fin 2000) (j : Fin 256), y = ix2 r j := ⟨y 0, y 1, eq_ix2 y⟩
  refine (stored_apply (iblk0 V c 0 t) (iblk0 V c 1 t) (iblk0 V c 2 t) (iblk0 V c 3 t) (iblk0 V c 4 t) (iblk0 V c 5 t) r j).trans ?_
  obtain ⟨-, -, -, -, -, -, -, -, -, -, -, -, e12, e13⟩ := idx_facts t
  have hy : ((cfg0.win 6).blk t).view.emb (ix2 r j)
      = ix2 (⟨2000 * t.val + r.val, by have ht : t.val < 25 := t.isLt; have := r.isLt; omega⟩ : Fin 50000) j :=
    funext fun a => Fin.ext (by
      match a with
      | ⟨0, _⟩ => show win0_6.index t (0 : Fin 2) * 2000 + 1 * r.val = 2000 * t.val + r.val; omega
      | ⟨1, _⟩ => show win0_6.index t (1 : Fin 2) * 256 + 1 * j.val = j.val; omega)
  show _ = Cert.Spec.mlp128 (V c main_arg0) (V c main_v13) (V c main_v14) ba (V c main_v15) bb (((cfg0.win 6).blk t).view.emb (ix2 r j))
  rw [hy, Cert.Spec.mlp128_apply]
  simp only [read_x, read_agg, read_WaT, read_ba V c ba hba, read_WbT, read_bb V c bb hbb]

/-- An index of the output array is in point t's block iff each coordinate is in the block's range. -/
theorem mem_blk (t : Fin cfg0.N) (i : S50000x256.Idx) :
    i ∈ ((cfg0.win 6).blk t).view.set
      ↔ ∀ a : Fin 2, win0_6.index t a * S2000x256.size a ≤ (i a).val ∧ (i a).val < win0_6.index t a * S2000x256.size a + S2000x256.size a := by
  show i ∈ ((View.whole main_v18).slice (win0_6.rect t)).set ↔ _
  rw [View.set_slice_whole, Rect.mem_set_unit]
  exact Iff.rfl

/-- Every row of the output is in the block of the point that is its quotient by 2000. -/
theorem cover (i : S50000x256.Idx) : ∃ t : Fin cfg0.N, (cfg0.win 6).flush t = true ∧ i ∈ ((cfg0.win 6).blk t).view.set := by
  have h0 : (i 0).val < 50000 := (i 0).isLt
  have h1 : (i 1).val < 256 := (i 1).isLt
  refine ⟨⟨(i 0).val / 2000, by show (i 0).val / 2000 < 25; omega⟩, flush0_6 _, ?_⟩
  obtain ⟨-, -, -, -, -, -, -, -, -, -, -, -, e12, e13⟩ := idx_facts ⟨(i 0).val / 2000, by show (i 0).val / 2000 < 25; omega⟩
  rw [mem_blk]
  intro a
  match a with
  | ⟨0, _⟩ =>
    show win0_6.index ⟨(i 0).val / 2000, _⟩ (0 : Fin 2) * 2000 ≤ (i 0).val ∧ (i 0).val < win0_6.index ⟨(i 0).val / 2000, _⟩ (0 : Fin 2) * 2000 + 2000
    rw [e12]; show (i 0).val / 2000 * 2000 ≤ (i 0).val ∧ (i 0).val < (i 0).val / 2000 * 2000 + 2000; omega
  | ⟨1, _⟩ =>
    show win0_6.index ⟨(i 0).val / 2000, _⟩ (1 : Fin 2) * 256 ≤ (i 1).val ∧ (i 1).val < win0_6.index ⟨(i 0).val / 2000, _⟩ (1 : Fin 2) * 256 + 256
    rw [e13]; omega

/-- THE OUTPUT ARRAY after the region: the perceptron of the arrays the region found. -/
theorem arr_eq (c : Dev nD) (ba bb : FVec Ideal S256 .f32)
    (hba : V c main_v16 = shapeCast S1x256 ba shapeCasts_S256_S1x256) (hbb : V c main_v17 = shapeCast S1x256 bb shapeCasts_S256_S1x256) :
    (dat0 (F := Ideal) V c).arrAt 6 cfg0.N
      = Cert.Spec.mlp128 (V c main_arg0) (V c main_v13) (V c main_v14) ba (V c main_v15) bb :=
  (dat0 V c).arrAt_eq_of_cover 6 _ (fun t _ => flushed_eq V c ba bb hba hbb t) cover

end Region

end Cert.KernelIdeal.Layer1

end
-- ==== Proof.Layer2Value.lean ====
/-
  The second layer's kernel: what its output array holds after the run.

  The grid has 25 points; point t stages rows 2000·t … 2000·t + 1999 of the first layer's output and of the neighbour sums,
  the two weight matrices and the two bias rows whole, and writes back the same rows of the output. Entry (r, j) of
  the block the body stores is  Σ_k max(Σ_l (x + agg)(r, l) · WaT(l, k) + ba(k), 0) · WbT(k, j) + bb(j)  over the
  staged rows: the rounding of the operands to bf16 is the identity on the reals and the matrix unit's product into a
  zero accumulator is the plain sum. That is the perceptron of the whole arrays at row 2000·t + r, and the 25 blocks
  tile the output, so the array ends at the perceptron of the arrays the region found.
-/
import proofs.«107765_j395136991531_1_alg».proof.Proof.Gen.KernelIdeal.Frame
import proofs.«107765_j395136991531_1_alg».proof.Proof.SpecRead

set_option maxRecDepth 16384

noncomputable section

namespace Cert.KernelIdeal.Layer2

open Cert.KernelIdeal Cert.KernelIdeal.Gen Idealize.ShloMosaic Idealize.ShloMosaic.TcCoe Idealize.ShloMosaic.ValueIdx Idealize.SL.Sem
open Idealize.ShloMosaic.Pipeline (Dat)

/-! ## The body's two products at an entry -/

theorem mmA_apply {φ₁ φ₂ : FTy} (l : FVec Ideal S2000x256 φ₁) (r : FVec Ideal S256x256 φ₂) (p : Fin 2000) (j : Fin 256) :
    FloatOps.matmul dot_S2000x256_S256x256_S2000x256_1_0_0_1_n_n none l r (constant S2000x256 .f32 0x00000000#32) (ix2 p j)
      = ∑ k : Fin 256, l (ix2 p k) * r (ix2 k j) :=
  PlainDot.matmul_zero_apply _ rfl _ l r p j

theorem mmB_apply {φ₁ φ₂ : FTy} (l : FVec Ideal S2000x256 φ₁) (r : FVec Ideal S256x256 φ₂) (p : Fin 2000) (j : Fin 256) :
    FloatOps.matmul dot_S2000x256_S256x256_S2000x256_1_0_0_1_n_n none l r (constant S2000x256 .f32 0x00000000#32) (ix2 p j)
      = ∑ k : Fin 256, l (ix2 p k) * r (ix2 k j) :=
  PlainDot.matmul_zero_apply _ rfl _ l r p j

/-! ## The stored block at an entry -/

/-- Entry (r, j) of what the body stores, over the blocks it loaded. -/
theorem stored_apply (v0 v1 : Vec Ideal S2000x256 .f32) (v5 : Vec Ideal S256x256 .f32) (v9 : Vec Ideal S1x256 .f32)
    (v16 : Vec Ideal S256x256 .f32) (v20 : Vec Ideal S1x256 .f32) (r : Fin 2000) (j : Fin 256) :
    k1_pay1 v0 v1 v5 v9 v16 v20 (ix2 r j)
      = (∑ k : Fin 256, max ((∑ l : Fin 256, (v0 (ix2 r l) + v1 (ix2 r l)) * v5 (ix2 l k)) + v9 (ix2 (0 : Fin 1) k)) (Ideal.ofBits .f32 0x00000000#32)
            * v16 (ix2 k j))
        + v20 (ix2 (0 : Fin 1) j) := by
  unfold k1_pay1
  simp only [addf_apply, maximumf_apply, truncf_apply, matmul, mmB_apply, mmA_apply, shapeCast_self, broadcastTo_1b_ab_apply, broadcast_apply]
  rfl

/-! ## The blocks' places in their arrays -/

theorem hz : (![0, 0] : Fin 2 → Nat) = fun _ => 0 := funext fun a => by fin_cases a <;> rfl

/-- The printed index maps over the grid: the row-blocked windows (features, neighbour sums, output) are at block
    (t, 0), the weights and the bias rows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

section Region

variable (V : (c : Dev nD) → (b : Ref sig .tc) → Buf (Elt Ideal) ((c : Thread nD τ).loc b))

/-- Row r of the features' block at point t is row 2000·t + r of the array. -/
theorem read_x (c : Dev nD) (t : Fin cfg1.N) (r : Fin 2000) (l : Fin 256) :
    iblk1 V c 0 t (ix2 r l)
      = V c main_v18 (ix2 (⟨2000 * t.val + r.val, by have ht : t.val < 25 := t.isLt; have := r.isLt; omega⟩ : Fin 50000) l) := by
  obtain ⟨e0, e1, -⟩ := idx_facts t
  show V c main_v18 (((cfg1.win 0).blk t).view.emb (ix2 r l)) = _
  refine congrArg (V c main_v18) (funext fun a => Fin.ext ?_)
  match a with
  | ⟨0, _⟩ => show win1_0.index t (0 : Fin 2) * 2000 + 1 * r.val = 2000 * t.val + r.val; omega
  | ⟨1, _⟩ => show win1_0.index t (1 : Fin 2) * 256 + 1 * l.val = l.val; omega

/-- The same for the neighbour sums. -/
theorem read_agg (c : Dev nD) (t : Fin cfg1.N) (r : Fin 2000) (l : Fin 256) :
    iblk1 V c 1 t (ix2 r l)
      = V c main_v28 (ix2 (⟨2000 * t.val + r.val, by have ht : t.val < 25 := t.isLt; have := r.isLt; omega⟩ : Fin 50000) l) := by
  obtain ⟨-, -, e2, e3, -⟩ := idx_facts t
  show V c main_v28 (((cfg1.win 1).blk t).view.emb (ix2 r l)) = _
  refine congrArg (V c main_v28) (funext fun a => Fin.ext ?_)
  match a with
  | ⟨0, _⟩ => show win1_1.index t (0 : Fin 2) * 2000 + 1 * r.val = 2000 * t.val + r.val; omega
  | ⟨1, _⟩ => show win1_1.index t (1 : Fin 2) * 256 + 1 * l.val = l.val; omega

/-- The first weight matrix is staged whole at every point. -/
theorem read_WaT (c : Dev nD) (t : Fin cfg1.N) (l : Fin 256) (k : Fin 256) :
    iblk1 V c 2 t (ix2 l k) = V c main_v29 (ix2 l k) := by
  obtain ⟨-, -, -, -, e4, e5, -⟩ := idx_facts t
  show V c main_v29 (((cfg1.win 2).blk t).view.emb (ix2 l k)) = _
  refine congrArg (V c main_v29) (funext fun a => Fin.ext ?_)
  match a with
  | ⟨0, _⟩ => show win1_2.index t (0 : Fin 2) * 256 + 1 * l.val = l.val; omega
  | ⟨1, _⟩ => show win1_2.index t (1 : Fin 2) * 256 + 1 * k.val = k.val; omega

/-- The first bias row is staged whole; as the region finds it, it is the bias vector with a unit axis in front. -/
theorem read_ba (c : Dev nD) (ba : FVec Ideal S256 .f32) (hba : V c main_v31 = shapeCast S1x256 ba shapeCasts_S256_S1x256)
    (t : Fin cfg1.N) (k : Fin 256) : iblk1 V c 3 t (ix2 (0 : Fin 1) k) = ba (ix1 k) := by
  obtain ⟨-, -, -, -, -, -, e6, e7, -⟩ := idx_facts t
  have h : iblk1 V c 3 t (ix2 (0 : Fin 1) k) = V c main_v31 (ix2 (0 : Fin 1) k) := by
    show V c main_v31 (((cfg1.win 3).blk t).view.emb (ix2 (0 : Fin 1) k)) = _
    refine congrArg (V c main_v31) (funext fun a => Fin.ext ?_)
    match a with
    | ⟨0, _⟩ => show win1_3.index t (0 : Fin 2) * 1 + 1 * 0 = 0; omega
    | ⟨1, _⟩ => show win1_3.index t (1 : Fin 2) * 256 + 1 * k.val = k.val; omega
  exact h.trans ((congrFun hba (ix2 (0 : Fin 1) k)).trans (shapeCast_a_1a_apply ba _ 0 k))

/-- The second weight matrix is staged whole at every point. -/
theorem read_WbT (c : Dev nD) (t : Fin cfg1.N) (k : Fin 256) (j : Fin 256) :
    iblk1 V c 4 t (ix2 k j) = V c main_v30 (ix2 k j) := by
  obtain ⟨-, -, -, -, -, -, -, -, e8, e9, -⟩ := idx_facts t
  show V c main_v30 (((cfg1.win 4).blk t).view.emb (ix2 k j)) = _
  refine congrArg (V c main_v30) (funext fun a => Fin.ext ?_)
  match a with
  | ⟨0, _⟩ => show win1_4.index t (0 : Fin 2) * 256 + 1 * k.val = k.val; omega
  | ⟨1, _⟩ => show win1_4.index t (1 : Fin 2) * 256 + 1 * j.val = j.val; omega

/-- The second bias row, as the first. -/
theorem read_bb (c : Dev nD) (bb : FVec Ideal S256 .f32) (hbb : V c main_v32 = shapeCast S1x256 bb shapeCasts_S256_S1x256)
    (t : Fin cfg1.N) (j : Fin 256) : iblk1 V c 5 t (ix2 (0 : Fin 1) j) = bb (ix1 j) := by
  obtain ⟨-, -, -, -, -, -, -, -, -, -, e10, e11, -⟩ := idx_facts t
  have h : iblk1 V c 5 t (ix2 (0 : Fin 1) j) = V c main_v32 (ix2 (0 : Fin 1) j) := by
    show V c main_v32 (((cfg1.win 5).blk t).view.emb (ix2 (0 : Fin 1) j)) = _
    refine congrArg (V c main_v32) (funext fun a => Fin.ext ?_)
    match a with
    | ⟨0, _⟩ => show win1_5.index t (0 : Fin 2) * 1 + 1 * 0 = 0; omega
    | ⟨1, _⟩ => show win1_5.index t (1 : Fin 2) * 256 + 1 * j.val = j.val; omega
  exact h.trans ((congrFun hbb (ix2 (0 : Fin 1) j)).trans (shapeCast_a_1a_apply bb _ 0 j))

/-! ## What a point writes back, and the array after the run -/

/-- Point t writes back rows 2000·t … of the perceptron of the arrays the region found. -/
theorem flushed_eq (c : Dev nD) (ba bb : FVec Ideal S256 .f32)
    (hba : V c main_v31 = shapeCast S1x256 ba shapeCasts_S256_S1x256) (hbb : V c main_v32 = shapeCast S1x256 bb shapeCasts_S256_S1x256)
    (t : Fin cfg1.N) :
    (dat1 (F := Ideal) V c).flushed 6 t
      = ((cfg1.win 6).blk t).view.read (Elt Ideal)
          (Cert.Spec.mlp256 (V c main_v18) (V c main_v28) (V c main_v29) ba (V c main_v30) bb) := by
  show (cfg1.win 6).cut (grid1.coords t) ((dat1 V c).after 6 t) = _
  rw [after1_6]
  unfold out1_6
  rw [View.canon_unit_zero hz]
  simp only [View.ld_unit_zero (S := S2000x256) hz, View.ld_unit_zero (S := S256x256) hz, View.ld_unit_zero (S := S1x256) hz,
    View.ld_unit_zero (S := S256x256) hz]
  funext y
  obtain ⟨r, j, rfl⟩ : ∃ (r : Fin 2000) (j : Fin 256), y = ix2 r j := ⟨y 0, y 1, eq_ix2 y⟩
  refine (stored_apply (iblk1 V c 0 t) (iblk1 V c 1 t) (iblk1 V c 2 t) (iblk1 V c 3 t) (iblk1 V c 4 t) (iblk1 V c 5 t) r j).trans ?_
  obtain ⟨-, -, -, -, -, -, -, -, -, -, -, -, e12, e13⟩ := idx_facts t
  have hy : ((cfg1.win 6).blk t).view.emb (ix2 r j)
      = ix2 (⟨2000 * t.val + r.val, by have ht : t.val < 25 := t.isLt; have := r.isLt; omega⟩ : Fin 50000) j :=
    funext fun a => Fin.ext (by
      match a with
      | ⟨0, _⟩ => show win1_6.index t (0 : Fin 2) * 2000 + 1 * r.val = 2000 * t.val + r.val; omega
      | ⟨1, _⟩ => show win1_6.index t (1 : Fin 2) * 256 + 1 * j.val = j.val; omega)
  show _ = Cert.Spec.mlp256 (V c main_v18) (V c main_v28) (V c main_v29) ba (V c main_v30) bb (((cfg1.win 6).blk t).view.emb (ix2 r j))
  rw [hy, Cert.Spec.mlp256_apply]
  simp only [read_x, read_agg, read_WaT, read_ba V c ba hba, read_WbT, read_bb V c bb hbb]

/-- An index of the output array is in point t's block iff each coordinate is in the block's range. -/
theorem mem_blk (t : Fin cfg1.N) (i : S50000x256.Idx) :
    i ∈ ((cfg1.win 6).blk t).view.set
      ↔ ∀ a : Fin 2, win1_6.index t a * S2000x256.size a ≤ (i a).val ∧ (i a).val < win1_6.index t a * S2000x256.size a + S2000x256.size a := by
  show i ∈ ((View.whole main_v33).slice (win1_6.rect t)).set ↔ _
  rw [View.set_slice_whole, Rect.mem_set_unit]
  exact Iff.rfl

/-- Every row of the output is in the block of the point that is its quotient by 2000. -/
theorem cover (i : S50000x256.Idx) : ∃ t : Fin cfg1.N, (cfg1.win 6).flush t = true ∧ i ∈ ((cfg1.win 6).blk t).view.set := by
  have h0 : (i 0).val < 50000 := (i 0).isLt
  have h1 : (i 1).val < 256 := (i 1).isLt
  refine ⟨⟨(i 0).val / 2000, by show (i 0).val / 2000 < 25; omega⟩, flush1_6 _, ?_⟩
  obtain ⟨-, -, -, -, -, -, -, -, -, -, -, -, e12, e13⟩ := idx_facts ⟨(i 0).val / 2000, by show (i 0).val / 2000 < 25; omega⟩
  rw [mem_blk]
  intro a
  match a with
  | ⟨0, _⟩ =>
    show win1_6.index ⟨(i 0).val / 2000, _⟩ (0 : Fin 2) * 2000 ≤ (i 0).val ∧ (i 0).val < win1_6.index ⟨(i 0).val / 2000, _⟩ (0 : Fin 2) * 2000 + 2000
    rw [e12]; show (i 0).val / 2000 * 2000 ≤ (i 0).val ∧ (i 0).val < (i 0).val / 2000 * 2000 + 2000; omega
  | ⟨1, _⟩ =>
    show win1_6.index ⟨(i 0).val / 2000, _⟩ (1 : Fin 2) * 256 ≤ (i 1).val ∧ (i 1).val < win1_6.index ⟨(i 0).val / 2000, _⟩ (1 : Fin 2) * 256 + 256
    rw [e13]; omega

/-- THE OUTPUT ARRAY after the region: the perceptron of the arrays the region found. -/
theorem arr_eq (c : Dev nD) (ba bb : FVec Ideal S256 .f32)
    (hba : V c main_v31 = shapeCast S1x256 ba shapeCasts_S256_S1x256) (hbb : V c main_v32 = shapeCast S1x256 bb shapeCasts_S256_S1x256) :
    (dat1 (F := Ideal) V c).arrAt 6 cfg1.N
      = Cert.Spec.mlp256 (V c main_v18) (V c main_v28) (V c main_v29) ba (V c main_v30) bb :=
  (dat1 V c).arrAt_eq_of_cover 6 _ (fun t _ => flushed_eq V c ba bb hba hbb t) cover

end Region

end Cert.KernelIdeal.Layer2

end
-- ==== Proof.HeadValue.lean ====
/-
  The pooling head's kernel: what its output array holds after the run.

  One grid point stages everything whole: the per-graph sums (64 × 256), the per-graph node counts as a column
  (64 × 1), the classifier's weights (256 × 10) and its bias as a row (1 × 10). Entry (g, j) of the block the body stores
  is  Σ_k (sums(g, k) / max(cnts(g), 1)) · WcT(k, j) + bc(j): the column of divisors is broadcast along the features,
  the rounding to bf16 is the identity on the reals, and the matrix unit's product into a zero accumulator is the plain
  sum. The one block is the whole output.
-/
import proofs.«107765_j395136991531_1_alg».proof.Proof.Gen.KernelIdeal.Frame
import proofs.«107765_j395136991531_1_alg».proof.Proof.SpecRead

set_option maxRecDepth 16384

noncomputable section

namespace Cert.KernelIdeal.Head

open Cert.KernelIdeal Cert.KernelIdeal.Gen Idealize.ShloMosaic Idealize.ShloMosaic.TcCoe Idealize.ShloMosaic.ValueIdx Idealize.SL.Sem
open Idealize.ShloMosaic.Pipeline (Dat)

/-! ## The body's product and its column broadcast at an entry -/

theorem mm_apply {φ₁ φ₂ : FTy} (l : FVec Ideal S64x256 φ₁) (r : FVec Ideal S256x10 φ₂) (p : Fin 64) (j : Fin 10) :
    FloatOps.matmul dot_S64x256_S256x10_S64x10_1_0_0_1_n_n none l r (constant S64x10 .f32 0x00000000#32) (ix2 p j)
      = ∑ k : Fin 256, l (ix2 p k) * r (ix2 k j) :=
  PlainDot.matmul_zero_apply _ rfl _ l r p j

/-- A 64 × 1 column broadcast to 64 × 256 reads, at (g, k), the column at g. -/
theorem column_apply {α : Type} (v : S64x1.Idx → α) (h : S64x1.Broadcasts S64x256) (g : Fin 64) (k : Fin 256) :
    broadcastTo S64x256 v h (ix2 g k) = v (ix2 g (0 : Fin 1)) := by
  refine broadcastTo_apply v h (ix2 g k) (ix2 g (0 : Fin 1)) fun ax => ?_
  match ax with
  | ⟨0, _⟩ => show g.val = if (64 : Nat) = 1 then 0 else g.val; rw [if_neg (by decide)]
  | ⟨1, _⟩ => rfl

/-! ## The stored block at an entry -/

theorem stored_apply (v0 : Vec Ideal S64x1 .f32) (v4 : Vec Ideal S64x256 .f32) (v9 : Vec Ideal S256x10 .f32) (v13 : Vec Ideal S1x10 .f32)
    (g : Fin 64) (j : Fin 10) :
    k2_pay1 v0 v4 v9 v13 (ix2 g j)
      = (∑ k : Fin 256, Ideal.div (v4 (ix2 g k)) (max (v0 (ix2 g (0 : Fin 1))) (Ideal.ofBits .f32 0x3F800000#32)) * v9 (ix2 k j))
        + v13 (ix2 (0 : Fin 1) j) := by
  unfold k2_pay1
  simp only [addf_apply, maximumf_apply, divf_apply, truncf_apply, matmul, mm_apply, shapeCast_self, column_apply, broadcastTo_1b_ab_apply,
    broadcast_apply]
  rfl

/-! ## The blocks' places in their arrays -/

theorem hz : (![0, 0] : Fin 2 → Nat) = fun _ => 0 := funext fun a => by fin_cases a <;> rfl

/-- The printed index maps at the one grid point: every window is at block (0, 0). -/
theorem idx_facts : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

section Region

variable (V : (c : Dev nD) → (b : Ref sig .tc) → Buf (Elt Ideal) ((c : Thread nD τ).loc b))

/-- The per-graph sums are staged whole. -/
theorem read_sums (c : Dev nD) (t : Fin cfg2.N) (g : Fin 64) (k : Fin 256) :
    iblk2 V c 0 t (ix2 g k) = V c main_v36 (ix2 g k) := by
  obtain ⟨e0, e1, -⟩ := idx_facts t
  show V c main_v36 (((cfg2.win 0).blk t).view.emb (ix2 g k)) = _
  refine congrArg (V c main_v36) (funext fun a => Fin.ext ?_)
  match a with
  | ⟨0, _⟩ => show win2_0.index t (0 : Fin 2) * 64 + 1 * g.val = g.val; omega
  | ⟨1, _⟩ => show win2_0.index t (1 : Fin 2) * 256 + 1 * k.val = k.val; omega

/-- The counts' column is staged whole; as the region finds it, it is the count vector with a unit axis behind. -/
theorem read_cnts (c : Dev nD) (cnts : FVec Ideal S64 .f32) (hc : V c main_v41 = broadcastInDim S64x1 ![0] bcast_S64_S64x1_0 cnts)
    (t : Fin cfg2.N) (g : Fin 64) : iblk2 V c 1 t (ix2 g (0 : Fin 1)) = cnts (ix1 g) := by
  obtain ⟨-, -, e2, e3, -⟩ := idx_facts t
  have h : iblk2 V c 1 t (ix2 g (0 : Fin 1)) = V c main_v41 (ix2 g (0 : Fin 1)) := by
    show V c main_v41 (((cfg2.win 1).blk t).view.emb (ix2 g (0 : Fin 1))) = _
    refine congrArg (V c main_v41) (funext fun a => Fin.ext ?_)
    match a with
    | ⟨0, _⟩ => show win2_1.index t (0 : Fin 2) * 64 + 1 * g.val = g.val; omega
    | ⟨1, _⟩ => show win2_1.index t (1 : Fin 2) * 1 + 1 * 0 = 0; omega
  exact h.trans ((congrFun hc (ix2 g (0 : Fin 1))).trans
    (broadcastInDim_apply _ bcast_S64_S64x1_0 cnts (ix2 g (0 : Fin 1)) (ix1 g) (fun a => match a with
      | ⟨0, _⟩ => by show g.val = if (64 : Nat) = 1 then 0 else g.val; rw [if_neg (by decide)])))

/-- The classifier's weights are staged whole. -/
theorem read_WcT (c : Dev nD) (t : Fin cfg2.N) (k : Fin 256) (j : Fin 10) :
    iblk2 V c 2 t (ix2 k j) = V c main_v42 (ix2 k j) := by
  obtain ⟨-, -, -, -, e4, e5, -⟩ := idx_facts t
  show V c main_v42 (((cfg2.win 2).blk t).view.emb (ix2 k j)) = _
  refine congrArg (V c main_v42) (funext fun a => Fin.ext ?_)
  match a with
  | ⟨0, _⟩ => show win2_2.index t (0 : Fin 2) * 256 + 1 * k.val = k.val; omega
  | ⟨1, _⟩ => show win2_2.index t (1 : Fin 2) * 10 + 1 * j.val = j.val; omega

/-- The classifier's bias row is staged whole; as the region finds it, it is the bias vector with a unit axis in front. -/
theorem read_bc (c : Dev nD) (bc : FVec Ideal S10 .f32) (hb : V c main_v43 = shapeCast S1x10 bc shapeCasts_S10_S1x10)
    (t : Fin cfg2.N) (j : Fin 10) : iblk2 V c 3 t (ix2 (0 : Fin 1) j) = bc (ix1 j) := by
  obtain ⟨-, -, -, -, -, -, e6, e7, -⟩ := idx_facts t
  have h : iblk2 V c 3 t (ix2 (0 : Fin 1) j) = V c main_v43 (ix2 (0 : Fin 1) j) := by
    show V c main_v43 (((cfg2.win 3).blk t).view.emb (ix2 (0 : Fin 1) j)) = _
    refine congrArg (V c main_v43) (funext fun a => Fin.ext ?_)
    match a with
    | ⟨0, _⟩ => show win2_3.index t (0 : Fin 2) * 1 + 1 * 0 = 0; omega
    | ⟨1, _⟩ => show win2_3.index t (1 : Fin 2) * 10 + 1 * j.val = j.val; omega
  exact h.trans ((congrFun hb (ix2 (0 : Fin 1) j)).trans (shapeCast_a_1a_apply bc _ 0 j))

/-! ## What the point writes back, and the array after the run -/

theorem flushed_eq (c : Dev nD) (cnts : FVec Ideal S64 .f32) (bc : FVec Ideal S10 .f32)
    (hc : V c main_v41 = broadcastInDim S64x1 ![0] bcast_S64_S64x1_0 cnts) (hb : V c main_v43 = shapeCast S1x10 bc shapeCasts_S10_S1x10)
    (t : Fin cfg2.N) :
    (dat2 (F := Ideal) V c).flushed 4 t
      = ((cfg2.win 4).blk t).view.read (Elt Ideal) (Cert.Spec.head (V c main_v36) cnts (V c main_v42) bc) := by
  show (cfg2.win 4).cut (grid2.coords t) ((dat2 V c).after 4 t) = _
  rw [after2_4]
  unfold out2_4
  rw [View.canon_unit_zero hz]
  simp only [View.ld_unit_zero (S := S64x256) hz, View.ld_unit_zero (S := S64x1) hz, View.ld_unit_zero (S := S256x10) hz,
    View.ld_unit_zero (S := S1x10) hz]
  funext y
  obtain ⟨g, j, rfl⟩ : ∃ (g : Fin 64) (j : Fin 10), y = ix2 g j := ⟨y 0, y 1, eq_ix2 y⟩
  refine (stored_apply (iblk2 V c 1 t) (iblk2 V c 0 t) (iblk2 V c 2 t) (iblk2 V c 3 t) g j).trans ?_
  obtain ⟨-, -, -, -, -, -, -, -, e8, e9⟩ := idx_facts t
  have hy : ((cfg2.win 4).blk t).view.emb (ix2 g j) = ix2 g j :=
    funext fun a => Fin.ext (by
      match a with
      | ⟨0, _⟩ => show win2_4.index t (0 : Fin 2) * 64 + 1 * g.val = g.val; omega
      | ⟨1, _⟩ => show win2_4.index t (1 : Fin 2) * 10 + 1 * j.val = j.val; omega)
  show _ = Cert.Spec.head (V c main_v36) cnts (V c main_v42) bc (((cfg2.win 4).blk t).view.emb (ix2 g j))
  rw [hy, Cert.Spec.head_apply]
  simp only [read_sums, read_cnts V c cnts hc, read_WcT, read_bc V c bc hb]

/-- An index of the output array is in the point's block iff each coordinate is in the block's range. -/
theorem mem_blk (t : Fin cfg2.N) (i : S64x10.Idx) :
    i ∈ ((cfg2.win 4).blk t).view.set
      ↔ ∀ a : Fin 2, win2_4.index t a * S64x10.size a ≤ (i a).val ∧ (i a).val < win2_4.index t a * S64x10.size a + S64x10.size a := by
  show i ∈ ((View.whole main_v44).slice (win2_4.rect t)).set ↔ _
  rw [View.set_slice_whole, Rect.mem_set_unit]
  exact Iff.rfl

/-- The one block is the whole output. -/
theorem cover (i : S64x10.Idx) : ∃ t : Fin cfg2.N, (cfg2.win 4).flush t = true ∧ i ∈ ((cfg2.win 4).blk t).view.set := by
  have h0 : (i 0).val < 64 := (i 0).isLt
  have h1 : (i 1).val < 10 := (i 1).isLt
  refine ⟨⟨0, by show 0 < 1; omega⟩, flush2_4 _, ?_⟩
  obtain ⟨-, -, -, -, -, -, -, -, e8, e9⟩ := idx_facts ⟨0, by show 0 < 1; omega⟩
  rw [mem_blk]
  intro a
  match a with
  | ⟨0, _⟩ =>
    show win2_4.index ⟨0, _⟩ (0 : Fin 2) * 64 ≤ (i 0).val ∧ (i 0).val < win2_4.index ⟨0, _⟩ (0 : Fin 2) * 64 + 64
    rw [e8]; omega
  | ⟨1, _⟩ =>
    show win2_4.index ⟨0, _⟩ (1 : Fin 2) * 10 ≤ (i 1).val ∧ (i 1).val < win2_4.index ⟨0, _⟩ (1 : Fin 2) * 10 + 10
    rw [e9]; omega

/-- THE OUTPUT ARRAY after the region: the head of the arrays the region found. -/
theorem arr_eq (c : Dev nD) (cnts : FVec Ideal S64 .f32) (bc : FVec Ideal S10 .f32)
    (hc : V c main_v41 = broadcastInDim S64x1 ![0] bcast_S64_S64x1_0 cnts) (hb : V c main_v43 = shapeCast S1x10 bc shapeCasts_S10_S1x10) :
    (dat2 (F := Ideal) V c).arrAt 4 cfg2.N = Cert.Spec.head (V c main_v36) cnts (V c main_v42) bc :=
  (dat2 V c).arrAt_eq_of_cover 4 _ (fun t _ => flushed_eq V c cnts bc hc hb t) cover

end Region

end Cert.KernelIdeal.Head

end
-- ==== Proof.Bridge.lean ====
/-
  From the last segment boundary back to the arguments.

  The run leaves in the result buffer what the head's region wrote; the head's region found the per-graph sums and
  counts the host computed from the second layer's output and the batch vector; the second layer's region found the
  first layer's output and its neighbour sum, computed by the host from that output and the edge list; the first
  layer's region found the node features and their neighbour sum. Each host stretch is read back operation by
  operation, each region by its value lemma, and an argument array is followed back through the stretches and regions
  that do not write it. Composed, the result buffer holds the network of the arguments.
-/
import proofs.«107765_j395136991531_1_alg».proof.Proof.KRun
import proofs.«107765_j395136991531_1_alg».proof.Proof.Layer1Value
import proofs.«107765_j395136991531_1_alg».proof.Proof.Layer2Value
import proofs.«107765_j395136991531_1_alg».proof.Proof.HeadValue

set_option maxRecDepth 16384

noncomputable section

namespace Cert.KernelIdeal.Bridge

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! ## Before the first layer's region: the first host stretch over the launch memory -/

theorem at1_x (c : Dev nD) : V1 m ρ c main_arg0 = (m ((c : Thread nD τ).loc main_arg0)) := by
  show StableHlo.after hostOps0 (W0 m ρ c) (Proc.devRef .tc main_arg0) = _
  after_results <;> rfl

theorem at1_agg (c : Dev nD) : V1 m ρ c main_v13 = Cert.Spec.agg128 (m ((c : Thread nD τ).loc main_arg0)) (m ((c : Thread nD τ).loc main_arg1)) := by
  show StableHlo.after hostOps0 (W0 m ρ c) (Proc.devRef .tc main_v13) = _
  after_results <;> rfl

theorem at1_WaT (c : Dev nD) : V1 m ρ c main_v14 = transpose S128x256 [1, 0] (m ((c : Thread nD τ).loc main_arg3)) transposes_S256x128_S128x256_1_0 := by
  show StableHlo.after hostOps0 (W0 m ρ c) (Proc.devRef .tc main_v14) = _
  after_results <;> rfl

theorem at1_WbT (c : Dev nD) : V1 m ρ c main_v15 = transpose S256x256 [1, 0] (m ((c : Thread nD τ).loc main_arg5)) transposes_S256x256_S256x256_1_0 := by
  show StableHlo.after hostOps0 (W0 m ρ c) (Proc.devRef .tc main_v15) = _
  after_results <;> rfl

theorem at1_ba (c : Dev nD) : V1 m ρ c main_v16 = shapeCast S1x256 (m ((c : Thread nD τ).loc main_arg4)) shapeCasts_S256_S1x256 := by
  show StableHlo.after hostOps0 (W0 m ρ c) (Proc.devRef .tc main_v16) = _
  after_results <;> rfl

theorem at1_bb (c : Dev nD) : V1 m ρ c main_v17 = shapeCast S1x256 (m ((c : Thread nD τ).loc main_arg6)) shapeCasts_S256_S1x256 := by
  show StableHlo.after hostOps0 (W0 m ρ c) (Proc.devRef .tc main_v17) = _
  after_results <;> rfl

/-- The edges' sources and destinations, computed once by the first stretch. -/
theorem at1_src (c : Dev nD) : W1 m ρ c (Proc.devRef .tc main_v1) = Cert.Spec.edgeRow0 (m ((c : Thread nD τ).loc main_arg1)) := by
  show StableHlo.after hostOps0 (W0 m ρ c) (Proc.devRef .tc main_v1) = _
  after_results <;> rfl

theorem at1_dst (c : Dev nD) : W1 m ρ c (Proc.devRef .tc main_v3) = Cert.Spec.edgeRow1 (m ((c : Thread nD τ).loc main_arg1)) := by
  show StableHlo.after hostOps0 (W0 m ρ c) (Proc.devRef .tc main_v3) = _
  after_results <;> rfl

/-- An argument the first stretch does not write is as launched. -/
theorem at1_arg2 (c : Dev nD) : W1 m ρ c (Proc.devRef .tc main_arg2) = (m ((c : Thread nD τ).loc main_arg2)) := by
  show StableHlo.after hostOps0 (W0 m ρ c) (Proc.devRef .tc main_arg2) = _
  after_results <;> rfl
theorem at1_arg7 (c : Dev nD) : W1 m ρ c (Proc.devRef .tc main_arg7) = (m ((c : Thread nD τ).loc main_arg7)) := by
  show StableHlo.after hostOps0 (W0 m ρ c) (Proc.devRef .tc main_arg7) = _
  after_results <;> rfl
theorem at1_arg8 (c : Dev nD) : W1 m ρ c (Proc.devRef .tc main_arg8) = (m ((c : Thread nD τ).loc main_arg8)) := by
  show StableHlo.after hostOps0 (W0 m ρ c) (Proc.devRef .tc main_arg8) = _
  after_results <;> rfl
theorem at1_arg9 (c : Dev nD) : W1 m ρ c (Proc.devRef .tc main_arg9) = (m ((c : Thread nD τ).loc main_arg9)) := by
  show StableHlo.after hostOps0 (W0 m ρ c) (Proc.devRef .tc main_arg9) = _
  after_results <;> rfl
theorem at1_arg10 (c : Dev nD) : W1 m ρ c (Proc.devRef .tc main_arg10) = (m ((c : Thread nD τ).loc main_arg10)) := by
  show StableHlo.after hostOps0 (W0 m ρ c) (Proc.devRef .tc main_arg10) = _
  after_results <;> rfl
theorem at1_arg11 (c : Dev nD) : W1 m ρ c (Proc.devRef .tc main_arg11) = (m ((c : Thread nD τ).loc main_arg11)) := by
  show StableHlo.after hostOps0 (W0 m ρ c) (Proc.devRef .tc main_arg11) = _
  after_results <;> rfl
theorem at1_arg12 (c : Dev nD) : W1 m ρ c (Proc.devRef .tc main_arg12) = (m ((c : Thread nD τ).loc main_arg12)) := by
  show StableHlo.after hostOps0 (W0 m ρ c) (Proc.devRef .tc main_arg12) = _
  after_results <;> rfl

/-! ## After the first layer's region -/

/-- The first layer's output. -/
abbrev h1 (c : Dev nD) : Cert.Spec.RA Cert.ReferenceIdeal.S50000x256 :=
  Cert.Spec.layer1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))

theorem at2_h1 (c : Dev nD) : W2 m ρ c (Proc.devRef .tc main_v18) = h1 m c := by
  refine (W2_arr m ρ c 6).trans ?_
  refine (Layer1.arr_eq (V1 m ρ) c (m ((c : Thread nD τ).loc main_arg4)) (m ((c : Thread nD τ).loc main_arg6)) (at1_ba m ρ c) (at1_bb m ρ c)).trans ?_
  rw [at1_x, at1_agg, at1_WaT, at1_WbT]
  rfl

/-- What the first region does not hold as a window is as the first stretch left it. -/
theorem at2_src (c : Dev nD) : W2 m ρ c (Proc.devRef .tc main_v1) = Cert.Spec.edgeRow0 (m ((c : Thread nD τ).loc main_arg1)) :=
  (W2_of_ne m ρ c main_v1 (by decide)).trans (at1_src m ρ c)
theorem at2_dst (c : Dev nD) : W2 m ρ c (Proc.devRef .tc main_v3) = Cert.Spec.edgeRow1 (m ((c : Thread nD τ).loc main_arg1)) :=
  (W2_of_ne m ρ c main_v3 (by decide)).trans (at1_dst m ρ c)
theorem at2_arg2 (c : Dev nD) : W2 m ρ c (Proc.devRef .tc main_arg2) = (m ((c : Thread nD τ).loc main_arg2)) :=
  (W2_of_ne m ρ c main_arg2 (by decide)).trans (at1_arg2 m ρ c)
theorem at2_arg7 (c : Dev nD) : W2 m ρ c (Proc.devRef .tc main_arg7) = (m ((c : Thread nD τ).loc main_arg7)) :=
  (W2_of_ne m ρ c main_arg7 (by decide)).trans (at1_arg7 m ρ c)
theorem at2_arg8 (c : Dev nD) : W2 m ρ c (Proc.devRef .tc main_arg8) = (m ((c : Thread nD τ).loc main_arg8)) :=
  (W2_of_ne m ρ c main_arg8 (by decide)).trans (at1_arg8 m ρ c)
theorem at2_arg9 (c : Dev nD) : W2 m ρ c (Proc.devRef .tc main_arg9) = (m ((c : Thread nD τ).loc main_arg9)) :=
  (W2_of_ne m ρ c main_arg9 (by decide)).trans (at1_arg9 m ρ c)
theorem at2_arg10 (c : Dev nD) : W2 m ρ c (Proc.devRef .tc main_arg10) = (m ((c : Thread nD τ).loc main_arg10)) :=
  (W2_of_ne m ρ c main_arg10 (by decide)).trans (at1_arg10 m ρ c)
theorem at2_arg11 (c : Dev nD) : W2 m ρ c (Proc.devRef .tc main_arg11) = (m ((c : Thread nD τ).loc main_arg11)) :=
  (W2_of_ne m ρ c main_arg11 (by decide)).trans (at1_arg11 m ρ c)
theorem at2_arg12 (c : Dev nD) : W2 m ρ c (Proc.devRef .tc main_arg12) = (m ((c : Thread nD τ).loc main_arg12)) :=
  (W2_of_ne m ρ c main_arg12 (by decide)).trans (at1_arg12 m ρ c)

/-! ## Before the second layer's region: the second host stretch -/

theorem at3_h1 (c : Dev nD) : V3 m ρ c main_v18 = h1 m c := by
  show StableHlo.after hostOps1 (W2 m ρ c) (Proc.devRef .tc main_v18) = _
  after_results
  exact at2_h1 m ρ c

theorem at3_agg (c : Dev nD) : V3 m ρ c main_v28 = Cert.Spec.agg256 (h1 m c) (m ((c : Thread nD τ).loc main_arg1)) := by
  show StableHlo.after hostOps1 (W2 m ρ c) (Proc.devRef .tc main_v28) = _
  after_results
  rw [at2_h1, at2_src, at2_dst]
  rfl

theorem at3_WaT (c : Dev nD) : V3 m ρ c main_v29 = transpose S256x256 [1, 0] (m ((c : Thread nD τ).loc main_arg7)) transposes_S256x256_S256x256_1_0 := by
  show StableHlo.after hostOps1 (W2 m ρ c) (Proc.devRef .tc main_v29) = _
  after_results
  rw [at2_arg7]

theorem at3_WbT (c : Dev nD) : V3 m ρ c main_v30 = transpose S256x256 [1, 0] (m ((c : Thread nD τ).loc main_arg9)) transposes_S256x256_S256x256_1_0 := by
  show StableHlo.after hostOps1 (W2 m ρ c) (Proc.devRef .tc main_v30) = _
  after_results
  rw [at2_arg9]

theorem at3_ba (c : Dev nD) : V3 m ρ c main_v31 = shapeCast S1x256 (m ((c : Thread nD τ).loc main_arg8)) shapeCasts_S256_S1x256 := by
  show StableHlo.after hostOps1 (W2 m ρ c) (Proc.devRef .tc main_v31) = _
  after_results
  rw [at2_arg8]
  rfl

theorem at3_bb (c : Dev nD) : V3 m ρ c main_v32 = shapeCast S1x256 (m ((c : Thread nD τ).loc main_arg10)) shapeCasts_S256_S1x256 := by
  show StableHlo.after hostOps1 (W2 m ρ c) (Proc.devRef .tc main_v32) = _
  after_results
  rw [at2_arg10]
  rfl

theorem at3_arg2 (c : Dev nD) : W3 m ρ c (Proc.devRef .tc main_arg2) = (m ((c : Thread nD τ).loc main_arg2)) := by
  show StableHlo.after hostOps1 (W2 m ρ c) (Proc.devRef .tc main_arg2) = _
  after_results
  exact at2_arg2 m ρ c
theorem at3_arg11 (c : Dev nD) : W3 m ρ c (Proc.devRef .tc main_arg11) = (m ((c : Thread nD τ).loc main_arg11)) := by
  show StableHlo.after hostOps1 (W2 m ρ c) (Proc.devRef .tc main_arg11) = _
  after_results
  exact at2_arg11 m ρ c
theorem at3_arg12 (c : Dev nD) : W3 m ρ c (Proc.devRef .tc main_arg12) = (m ((c : Thread nD τ).loc main_arg12)) := by
  show StableHlo.after hostOps1 (W2 m ρ c) (Proc.devRef .tc main_arg12) = _
  after_results
  exact at2_arg12 m ρ c

/-! ## After the second layer's region -/

/-- The second layer's output. -/
abbrev h2 (c : Dev nD) : Cert.Spec.RA Cert.ReferenceIdeal.S50000x256 :=
  Cert.Spec.layer2 (h1 m c) (m ((c : Thread nD τ).loc main_arg1)) (m ((c : Thread nD τ).loc main_arg7)) (m ((c : Thread nD τ).loc main_arg8)) (m ((c : Thread nD τ).loc main_arg9)) (m ((c : Thread nD τ).loc main_arg10))

theorem at4_h2 (c : Dev nD) : W4 m ρ c (Proc.devRef .tc main_v33) = h2 m c := by
  refine (W4_arr m ρ c 6).trans ?_
  refine (Layer2.arr_eq (V3 m ρ) c (m ((c : Thread nD τ).loc main_arg8)) (m ((c : Thread nD τ).loc main_arg10)) (at3_ba m ρ c) (at3_bb m ρ c)).trans ?_
  rw [at3_h1, at3_agg, at3_WaT, at3_WbT]
  rfl

theorem at4_arg2 (c : Dev nD) : W4 m ρ c (Proc.devRef .tc main_arg2) = (m ((c : Thread nD τ).loc main_arg2)) :=
  (W4_of_ne m ρ c main_arg2 (by decide)).trans (at3_arg2 m ρ c)
theorem at4_arg11 (c : Dev nD) : W4 m ρ c (Proc.devRef .tc main_arg11) = (m ((c : Thread nD τ).loc main_arg11)) :=
  (W4_of_ne m ρ c main_arg11 (by decide)).trans (at3_arg11 m ρ c)
theorem at4_arg12 (c : Dev nD) : W4 m ρ c (Proc.devRef .tc main_arg12) = (m ((c : Thread nD τ).loc main_arg12)) :=
  (W4_of_ne m ρ c main_arg12 (by decide)).trans (at3_arg12 m ρ c)

/-! ## Before the head's region: the third host stretch -/

theorem at5_sums (c : Dev nD) : V5 m ρ c main_v36 = Cert.Spec.graphSums (h2 m c) (m ((c : Thread nD τ).loc main_arg2)) := by
  show StableHlo.after hostOps2 (W4 m ρ c) (Proc.devRef .tc main_v36) = _
  after_results
  rw [at4_h2, at4_arg2]
  rfl

theorem at5_cnts (c : Dev nD) :
    V5 m ρ c main_v41 = broadcastInDim S64x1 ![0] bcast_S64_S64x1_0 (Cert.Spec.graphCounts (m ((c : Thread nD τ).loc main_arg2))) := by
  show StableHlo.after hostOps2 (W4 m ρ c) (Proc.devRef .tc main_v41) = _
  after_results
  rw [at4_arg2]
  rfl

theorem at5_WcT (c : Dev nD) : V5 m ρ c main_v42 = transpose S256x10 [1, 0] (m ((c : Thread nD τ).loc main_arg11)) transposes_S10x256_S256x10_1_0 := by
  show StableHlo.after hostOps2 (W4 m ρ c) (Proc.devRef .tc main_v42) = _
  after_results
  rw [at4_arg11]

theorem at5_bc (c : Dev nD) : V5 m ρ c main_v43 = shapeCast S1x10 (m ((c : Thread nD τ).loc main_arg12)) shapeCasts_S10_S1x10 := by
  show StableHlo.after hostOps2 (W4 m ρ c) (Proc.devRef .tc main_v43) = _
  after_results
  rw [at4_arg12]
  rfl

/-! ## The result buffer at the return -/

/-- The result buffer holds the network of the arguments. -/
theorem result_eq (c : Dev nD) :
    W6 m ρ c (Proc.devRef .tc main_v44)
      = Cert.Spec.logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
          (m ((c : Thread nD τ).loc main_arg10)) (m ((c : Thread nD τ).loc main_arg11)) (m ((c : Thread nD τ).loc main_arg12)) := by
  refine (W6_arr m ρ c 4).trans ?_
  refine (Head.arr_eq (V5 m ρ) c (Cert.Spec.graphCounts (m ((c : Thread nD τ).loc main_arg2))) (m ((c : Thread nD τ).loc main_arg12)) (at5_cnts m ρ c) (at5_bc m ρ c)).trans ?_
  rw [at5_sums, at5_WcT]
  rfl

end Cert.KernelIdeal.Bridge

end
-- ==== Proof.lean ====
/-
  A two-layer graph-isomorphism network with mean pooling and a linear classifier, against its jnp reference,
  over the extended reals.

  Both programs compute, for node features x, an edge list and a batch vector:
    h1 = relu((x + agg(x)) · W1aᵀ + b1a) · W1bᵀ + b1b,    h2 = relu((h1 + agg(h1)) · W2aᵀ + b2a) · W2bᵀ + b2b,
    logits = (Σ_{n in graph g} h2[n] / max(#nodes of g, 1)) · Wcᵀ + bc,
  where agg sums, into each node, the rows of its in-neighbours. The reference does all of it with host operations.
  The kernel keeps the neighbour sums and the per-graph sums and counts on the host — the very same operations, carried
  unopened — and runs the two perceptrons and the head in three Pallas regions: row blocks of 2000 nodes for the
  perceptrons, one block for the head. Inside a region the operands are rounded to bf16 before the matrix unit; at the
  exact instance that rounding is the identity and the matrix unit's product into a zero accumulator is the plain sum,
  as is the host's dot_general, so block by block the regions write the same entries the reference computes
  (Layer1Value, Layer2Value, HeadValue over SpecRead), and the boundaries between host stretches and regions compose to
  the whole network (Bridge). No algebraic law beyond reading both sides as the same finite sums is needed, so the
  finiteness of the inputs is never used.

  The frames of the two kernel programs are the generated ones; the reference's frame is its generated run with the
  result dropped; the idealization rewrote nothing, so `preserves` is trivial.
-/
import proofs.«107765_j395136991531_1_alg».proof.Defs
import proofs.«107765_j395136991531_1_alg».proof.Proof.Gen.Kernel
import proofs.«107765_j395136991531_1_alg».proof.Proof.Gen.Kernel.Skeleton
import proofs.«107765_j395136991531_1_alg».proof.Proof.Gen.Kernel.Launch
import proofs.«107765_j395136991531_1_alg».proof.Proof.Gen.Kernel.Points
import proofs.«107765_j395136991531_1_alg».proof.Proof.Gen.Kernel.Frame
import proofs.«107765_j395136991531_1_alg».proof.Proof.Gen.KernelIdeal
import proofs.«107765_j395136991531_1_alg».proof.Proof.Gen.KernelIdeal.Skeleton
import proofs.«107765_j395136991531_1_alg».proof.Proof.Gen.KernelIdeal.Launch
import proofs.«107765_j395136991531_1_alg».proof.Proof.Gen.KernelIdeal.Points
import proofs.«107765_j395136991531_1_alg».proof.Proof.Gen.KernelIdeal.Frame
import proofs.«107765_j395136991531_1_alg».proof.Proof.Gen.ReferenceIdeal
import proofs.«107765_j395136991531_1_alg».proof.Proof.Gen.Pre_finite_inputs
import proofs.«107765_j395136991531_1_alg».proof.Proof.Gen.ReferenceIdeal.Run
import proofs.«107765_j395136991531_1_alg».proof.Proof.Gen.ReferenceIdeal.Read
import proofs.«107765_j395136991531_1_alg».proof.Proof.Spec
import proofs.«107765_j395136991531_1_alg».proof.Proof.KRun
import proofs.«107765_j395136991531_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the result buffer at the network of the arguments, and the arguments agree. -/
theorem algebraic : Cert.algebraic_KernelIdeal_ReferenceIdeal := by
  intro m ρ m' ρ' _ hagree
  refine ⟨fun c => Cert.Spec.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Bridge.result_eq m ρ c), (h c).2⟩)
      (Cert.KernelIdeal.KRun.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.Spec.reference_result, e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
